-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg16 : FVec F S128x2 .f32) (main_arg17 : FVec F S2 .f32) (main_v63 : IVec S_ 1) (main_v67 : IVec S_ 1) : IVec S_ 1 :=
  let main_v68 : IVec S_ 1 := andi main_v63 main_v67
  let main_v69 : FVec F S128x2 .f32 := Host.absf main_arg16
  let main_cst_26 : FVec F S_ .f32 := constant S_ .f32 0x7F800000#32
  let main_v70 : FVec F S128x2 .f32 := broadcastInDim S128x2 ![] bcast_S_S128x2 main_cst_26
  let main_v71 : IVec S128x2 1 := cmpf .olt main_v69 main_v70
  let main_c_27 : IVec S_ 1 := constantI S_ 1 1#1
  let main_v72 : IVec S_ 1 := (fun x v => Host.reduce IntOp.andi x v reducesTo_S128x2_S_d0_1 h_S_) main_v71 main_c_27
  let main_v73 : IVec S_ 1 := andi main_v68 main_v72
  let main_v74 : FVec F S2 .f32 := Host.absf main_arg17
  let main_cst_28 : FVec F S_ .f32 := constant S_ .f32 0x7F800000#32
  let main_v75 : FVec F S2 .f32 := broadcastInDim S2 ![] bcast_S_S2 main_cst_28
  let main_v76 : IVec S2 1 := cmpf .olt main_v74 main_v75
  let main_c_29 : IVec S_ 1 := constantI S_ 1 1#1
  let main_v77 : IVec S_ 1 := (fun x v => Host.reduce IntOp.andi x v reducesTo_S2_S_d0 h_S_) main_v76 main_c_29
  let main_v78 : IVec S_ 1 := andi main_v73 main_v77
  main_v78

def fn_part3 {F : FTy → Type} [FloatOps F] (main_arg13 : FVec F S128x128 .f32) (main_arg14 : FVec F S128 .f32) (main_arg15 : FVec F S128x128 .f32) (main_arg16 : FVec F S128x2 .f32) (main_arg17 : FVec F S2 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg15
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg16 main_arg17 main_v63 main_v67

def fn_part2 {F : FTy → Type} [FloatOps F] (main_arg9 : FVec F S128x128 .f32) (main_arg10 : FVec F S128x128 .f32) (main_arg11 : FVec F S128 .f32) (main_arg12 : FVec F S128x128 .f32) (main_arg13 : FVec F S128x128 .f32) (main_arg14 : FVec F S128 .f32) (main_arg15 : FVec F S128x128 .f32) (main_arg16 : FVec F S128x2 .f32) (main_arg17 : FVec F S2 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_arg14 main_arg15 main_arg16 main_arg17 main_v48 main_v49 main_v50

def fn_part1 {F : FTy → Type} [FloatOps F] (main_arg6 : FVec F S128x128 .f32) (main_arg7 : FVec F S128x128 .f32) (main_arg8 : FVec F S128 .f32) (main_arg9 : FVec F S128x128 .f32) (main_arg10 : FVec F S128x128 .f32) (main_arg11 : FVec F S128 .f32) (main_arg12 : FVec F S128x128 .f32) (main_arg13 : FVec F S128x128 .f32) (main_arg14 : FVec F S128 .f32) (main_arg15 : FVec F S128x128 .f32) (main_arg16 : FVec F S128x2 .f32) (main_arg17 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S50000x128 .f32) (main_arg1 : FVec F S50000x128 .f32) (main_arg2 : IVec S2x1600000 32) (main_arg3 : IVec S2x1600000 32) (main_arg4 : FVec F S128x128 .f32) (main_arg5 : FVec F S128 .f32) (main_arg6 : FVec F S128x128 .f32) (main_arg7 : FVec F S128x128 .f32) (main_arg8 : FVec F S128 .f32) (main_arg9 : FVec F S128x128 .f32) (main_arg10 : FVec F S128x128 .f32) (main_arg11 : FVec F S128 .f32) (main_arg12 : FVec F S128x128 .f32) (main_arg13 : FVec F S128x128 .f32) (main_arg14 : FVec F S128 .f32) (main_arg15 : FVec F S128x128 .f32) (main_arg16 : FVec F S128x2 .f32) (main_arg17 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S50000 : Shape := ⟨1, ![50000]⟩
abbrev S50000x1 : Shape := ⟨2, ![50000, 1]⟩
abbrev S5000x128 : Shape := ⟨2, ![5000, 128]⟩
abbrev S1x128 : Shape := ⟨2, ![1, 128]⟩
abbrev S50000x2 : Shape := ⟨2, ![50000, 2]⟩
abbrev S5000x2 : Shape := ⟨2, ![5000, 2]⟩
abbrev S1x2 : Shape := ⟨2, ![1, 2]⟩

abbrev nBuf : Space → Nat
  | .hbm => 108
  | .vmem => 29
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S2x1600000, .i32⟩
  | .hbm, ⟨3, _⟩ => ⟨S2x1600000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S128x2, .f32⟩
  | .hbm, ⟨17, _⟩ => ⟨S2, .f32⟩
  | .hbm, ⟨18, _⟩ => ⟨S1x1600000, .i32⟩
  | .hbm, ⟨19, _⟩ => ⟨S1600000, .i32⟩
  | .hbm, ⟨20, _⟩ => ⟨S1x1600000, .i32⟩
  | .hbm, ⟨21, _⟩ => ⟨S1600000, .i32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x128, .f32⟩
  | .hbm, ⟨31, _⟩ => ⟨S_, .f32⟩
  | .hbm, ⟨32, _⟩ => ⟨S50000x128, .f32⟩
  | .hbm, ⟨33, _⟩ => ⟨S1600000x1, .i32⟩
  | .hbm, ⟨34, _⟩ => ⟨S50000x128, .f32⟩
  | .hbm, ⟨35, _⟩ => ⟨S_, .f32⟩
  | .hbm, ⟨36, _⟩ => ⟨S1600000, .f32⟩
  | .hbm, ⟨37, _⟩ => ⟨S_, .f32⟩
  | .hbm, ⟨38, _⟩ => ⟨S50000, .f32⟩
  | .hbm, ⟨39, _⟩ => ⟨S1600000x1, .i32⟩
  | .hbm, ⟨40, _⟩ => ⟨S50000, .f32⟩
  | .hbm, ⟨41, _⟩ => ⟨S_, .f32⟩
  | .hbm, ⟨42, _⟩ => ⟨S50000, .f32⟩
  | .hbm, ⟨43, _⟩ => ⟨S50000, .f32⟩
  | .hbm, ⟨44, _⟩ => ⟨S50000x1, .f32⟩
  | .hbm, ⟨45, _⟩ => ⟨S50000x128, .f32⟩
  | .hbm, ⟨46, _⟩ => ⟨S50000x128, .f32⟩
  | .hbm, ⟨47, _⟩ => ⟨S1x1600000, .i32⟩
  | .hbm, ⟨48, _⟩ => ⟨S1600000, .i32⟩
  | .hbm, ⟨49, _⟩ => ⟨S1x1600000, .i32⟩
  | .hbm, ⟨50, _⟩ => ⟨S1600000, .i32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x128, .f32⟩
  | .hbm, ⟨60, _⟩ => ⟨S_, .f32⟩
  | .hbm, ⟨61, _⟩ => ⟨S50000x128, .f32⟩
  | .hbm, ⟨62, _⟩ => ⟨S1600000x1, .i32⟩
  | .hbm, ⟨63, _⟩ => ⟨S50000x128, .f32⟩
  | .hbm, ⟨64, _⟩ => ⟨S_, .f32⟩
  | .hbm, ⟨65, _⟩ => ⟨S1600000, .f32⟩
  | .hbm, ⟨66, _⟩ => ⟨S_, .f32⟩
  | .hbm, ⟨67, _⟩ => ⟨S50000, .f32⟩
  | .hbm, ⟨68, _⟩ => ⟨S1600000x1, .i32⟩
  | .hbm, ⟨69, _⟩ => ⟨S50000, .f32⟩
  | .hbm, ⟨70, _⟩ => ⟨S_, .f32⟩
  | .hbm, ⟨71, _⟩ => ⟨S50000, .f32⟩
  | .hbm, ⟨72, _⟩ => ⟨S50000, .f32⟩
  | .hbm, ⟨73, _⟩ => ⟨S50000x1, .f32⟩
  | .hbm, ⟨74, _⟩ => ⟨S50000x128, .f32⟩
  | .hbm, ⟨75, _⟩ => ⟨S50000x128, .f32⟩
  | .hbm, ⟨76, _⟩ => ⟨S50000x128, .f32⟩
  | .hbm, ⟨77, _⟩ => ⟨S50000x128, .f32⟩
  | .hbm, ⟨78, _⟩ => ⟨S1x1600000, .i32⟩
  | .hbm, ⟨79, _⟩ => ⟨S1600000, .i32⟩
  | .hbm, ⟨80, _⟩ => ⟨S1x1600000, .i32⟩
  | .hbm, ⟨81, _⟩ => ⟨S1600000, .i32⟩
  | .hbm, ⟨82, _⟩ => ⟨S_, .i32⟩
  | .hbm, ⟨83, _⟩ => ⟨S1600000, .i32⟩
  | .hbm, ⟨84, _⟩ => ⟨S1600000, .i1⟩
  | .hbm, ⟨85, _⟩ => ⟨S_, .i32⟩
  | .hbm, ⟨86, _⟩ => ⟨S1600000, .i32⟩
  | .hbm, ⟨87, _⟩ => ⟨S1600000, .i32⟩
  | .hbm, ⟨88, _⟩ => ⟨S1600000, .i32⟩
  | .hbm, ⟨89, _⟩ => ⟨S1600000x1, .i32⟩
  | .hbm, ⟨90, _⟩ => ⟨S1600000x128, .f32⟩
  | .hbm, ⟨91, _⟩ => ⟨S_, .f32⟩
  | .hbm, ⟨92, _⟩ => ⟨S50000x128, .f32⟩
  | .hbm, ⟨93, _⟩ => ⟨S1600000x1, .i32⟩
  | .hbm, ⟨94, _⟩ => ⟨S50000x128, .f32⟩
  | .hbm, ⟨95, _⟩ => ⟨S_, .f32⟩
  | .hbm, ⟨96, _⟩ => ⟨S1600000, .f32⟩
  | .hbm, ⟨97, _⟩ => ⟨S_, .f32⟩
  | .hbm, ⟨98, _⟩ => ⟨S50000, .f32⟩
  | .hbm, ⟨99, _⟩ => ⟨S1600000x1, .i32⟩
  | .hbm, ⟨100, _⟩ => ⟨S50000, .f32⟩
  | .hbm, ⟨101, _⟩ => ⟨S_, .f32⟩
  | .hbm, ⟨102, _⟩ => ⟨S50000, .f32⟩
  | .hbm, ⟨103, _⟩ => ⟨S50000, .f32⟩
  | .hbm, ⟨104, _⟩ => ⟨S50000x1, .f32⟩
  | .hbm, ⟨105, _⟩ => ⟨S50000x128, .f32⟩
  | .hbm, ⟨106, _⟩ => ⟨S50000x128, .f32⟩
  | .hbm, ⟨107, _⟩ => ⟨S50000x2, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128, .f32⟩
  | .local _ .vmem, ⟨24, _⟩ => ⟨S128x128, .f32⟩
  | .local _ .vmem, ⟨25, _⟩ => ⟨S128x2, .f32⟩
  | .local _ .vmem, ⟨26, _⟩ => ⟨S2, .f32⟩
  | .local _ .vmem, ⟨27, _⟩ => ⟨S5000x2, .f32⟩
  | .local _ .vmem, ⟨28, _⟩ => ⟨S5000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_1 : Ref sig .tc := ⟨.hbm, 35, rfl⟩
abbrev main_v14 : Ref sig .tc := ⟨.hbm, 36, rfl⟩
abbrev main_cst_2 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_3 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_c_4 : Ref sig .tc := ⟨.hbm, 51, rfl⟩
abbrev main_v27 : Ref sig .tc := ⟨.hbm, 52, rfl⟩
abbrev main_v28 : Ref sig .tc := ⟨.hbm, 53, rfl⟩
abbrev main_c_5 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_6 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_7 : Ref sig .tc := ⟨.hbm, 64, rfl⟩
abbrev main_v37 : Ref sig .tc := ⟨.hbm, 65, rfl⟩
abbrev main_cst_8 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_9 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_c_10 : Ref sig .tc := ⟨.hbm, 82, rfl⟩
abbrev main_v52 : Ref sig .tc := ⟨.hbm, 83, rfl⟩
abbrev main_v53 : Ref sig .tc := ⟨.hbm, 84, rfl⟩
abbrev main_c_11 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_12 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_13 : Ref sig .tc := ⟨.hbm, 95, rfl⟩
abbrev main_v62 : Ref sig .tc := ⟨.hbm, 96, rfl⟩
abbrev main_cst_14 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_15 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg7_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem7_1 : DmaSem sig := 28

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x2 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S2 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x2 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x2_S128x2_0_0 : ∀ a, (![0, 0] : Fin 2 → Nat) a + S128x2.size a ≤ S128x2.size a
  h_S128x2 : 0 < S128x2.numel
  inb_S2_S2_0 : ∀ a, (![0] : Fin 1 → Nat) a + S2.size a ≤ S2.size a
  h_S2 : 0 < S2.numel
  shapeCasts_S2_S1x2 : S2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  scatter_S50000_S1600000x1_S1600000_n_0_0_1_wf : ScatterDims.WF S50000 S1600000x1 S1600000 [] [0] [0] 1
  dot_S5000x128_S128x128_S5000x128_1_0_0_1_n_n_wf : DotDims.WF S5000x128 S128x128 S5000x128 [1] [0] [0] [1] [] []
  dot_S5000x128_S128x2_S5000x2_1_0_0_1_n_n_wf : DotDims.WF S5000x128 S128x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x2.size a ≤ S128x2.size a
  hwx2_5 : ∀ i : grid2.Coords, EltTy.bits .f32 = 32 ∨ (Rect.block (s := S128x2) S128x2.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S2.size a ≤ S2.size a
  hwx2_6 : ∀ i : grid2.Coords, EltTy.bits .f32 = 32 ∨ (Rect.block (s := S2) S2.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x2.size a ≤ S50000x2.size a
  hwx2_7 : ∀ i : grid2.Coords, EltTy.bits .f32 = 32 ∨ (Rect.block (s := S50000x2) S5000x2.size (cc2_transform_7 i) (hinb2_7 i)).WholeWords (EltTy.packing .f32)

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x2_S5000x2_1_0_0_1_n_n : DotDims S5000x128 S128x2 S5000x2 where
  lhsContracting := [1]
  rhsContracting := [0]
  lhsNonContracting := [0]
  rhsNonContracting := [1]
  lhsBatch := []
  rhsBatch := []
  wf := dot_S5000x128_S128x2_S5000x2_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v46) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v70) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg16) S128x2.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg17) S2.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v71) S5000x2.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S50000 : Shape := ⟨1, ![50000]⟩
abbrev S50000x1 : Shape := ⟨2, ![50000, 1]⟩
abbrev S1x128 : Shape := ⟨2, ![1, 128]⟩
abbrev S50000x2 : Shape := ⟨2, ![50000, 2]⟩
abbrev S1x2 : Shape := ⟨2, ![1, 2]⟩

abbrev nBuf : Space → Nat
  | .hbm => 133
  | .vmem => 0
  | .smem => 0
  | _ => 0

abbrev hbmTy0_0 (i : Nat) : BufTy := match i % 128 with
  | 0 => ⟨S50000x128, .f32⟩
  | 1 => ⟨S50000x128, .f32⟩
  | 2 => ⟨S2x1600000, .i32⟩
  | 3 => ⟨S2x1600000, .i32⟩
  | 4 => ⟨S128x128, .f32⟩
  | 5 => ⟨S128, .f32⟩
  | 6 => ⟨S128x128, .f32⟩
  | 7 => ⟨S128x128, .f32⟩
  | 8 => ⟨S128, .f32⟩
  | 9 => ⟨S128x128, .f32⟩
  | 10 => ⟨S128x128, .f32⟩
  | 11 => ⟨S128, .f32⟩
  | 12 => ⟨S128x128, .f32⟩
  | 13 => ⟨S128x128, .f32⟩
  | 14 => ⟨S128, .f32⟩
  | 15 => ⟨S128x128, .f32⟩
  | 16 => ⟨S128x2, .f32⟩
  | 17 => ⟨S2, .f32⟩
  | 18 => ⟨S1x1600000, .i32⟩
  | 19 => ⟨S1600000, .i32⟩
  | 20 => ⟨S1x1600000, .i32⟩
  | 21 => ⟨S1600000, .i32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000x128, .f32⟩
  | 31 => ⟨S_, .f32⟩
  | 32 => ⟨S50000x128, .f32⟩
  | 33 => ⟨S1600000x1, .i32⟩
  | 34 => ⟨S50000x128, .f32⟩
  | 35 => ⟨S_, .f32⟩
  | 36 => ⟨S1600000, .f32⟩
  | 37 => ⟨S_, .f32⟩
  | 38 => ⟨S50000, .f32⟩
  | 39 => ⟨S1600000x1, .i32⟩
  | 40 => ⟨S50000, .f32⟩
  | 41 => ⟨S_, .f32⟩
  | 42 => ⟨S50000, .f32⟩
  | 43 => ⟨S50000, .f32⟩
  | 44 => ⟨S50000x1, .f32⟩
  | 45 => ⟨S50000x128, .f32⟩
  | 46 => ⟨S50000x128, .f32⟩
  | 47 => ⟨S50000x128, .f32⟩
  | 48 => ⟨S1x128, .f32⟩
  | 49 => ⟨S50000x128, .f32⟩
  | 50 => ⟨S50000x128, .f32⟩
  | 51 => ⟨S50000x128, .f32⟩
  | 52 => ⟨S50000x128, .f32⟩
  | 53 => ⟨S1x1600000, .i32⟩
  | 54 => ⟨S1600000, .i32⟩
  | 55 => ⟨S1x1600000, .i32⟩
  | 56 => ⟨S1600000, .i32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1600000x128, .f32⟩
  | 66 => ⟨S_, .f32⟩
  | 67 => ⟨S50000x128, .f32⟩
  | 68 => ⟨S1600000x1, .i32⟩
  | 69 => ⟨S50000x128, .f32⟩
  | 70 => ⟨S_, .f32⟩
  | 71 => ⟨S1600000, .f32⟩
  | 72 => ⟨S_, .f32⟩
  | 73 => ⟨S50000, .f32⟩
  | 74 => ⟨S1600000x1, .i32⟩
  | 75 => ⟨S50000, .f32⟩
  | 76 => ⟨S_, .f32⟩
  | 77 => ⟨S50000, .f32⟩
  | 78 => ⟨S50000, .f32⟩
  | 79 => ⟨S50000x1, .f32⟩
  | 80 => ⟨S50000x128, .f32⟩
  | 81 => ⟨S50000x128, .f32⟩
  | 82 => ⟨S50000x128, .f32⟩
  | 83 => ⟨S1x128, .f32⟩
  | 84 => ⟨S50000x128, .f32⟩
  | 85 => ⟨S50000x128, .f32⟩
  | 86 => ⟨S50000x128, .f32⟩
  | 87 => ⟨S50000x128, .f32⟩
  | 88 => ⟨S_, .f32⟩
  | 89 => ⟨S50000x128, .f32⟩
  | 90 => ⟨S50000x128, .f32⟩
  | 91 => ⟨S_, .f32⟩
  | 92 => ⟨S50000x128, .f32⟩
  | 93 => ⟨S50000x128, .f32⟩
  | 94 => ⟨S1x1600000, .i32⟩
  | 95 => ⟨S1600000, .i32⟩
  | 96 => ⟨S1x1600000, .i32⟩
  | 97 => ⟨S1600000, .i32⟩
  | 98 => ⟨S_, .i32⟩
  | 99 => ⟨S1600000, .i32⟩
  | 100 => ⟨S1600000, .i1⟩
  | 101 => ⟨S_, .i32⟩
  | 102 => ⟨S1600000, .i32⟩
  | 103 => ⟨S1600000, .i32⟩
  | 104 => ⟨S1600000, .i32⟩
  | 105 => ⟨S1600000x1, .i32⟩
  | 106 => ⟨S1600000x128, .f32⟩
  | 107 => ⟨S_, .f32⟩
  | 108 => ⟨S50000x128, .f32⟩
  | 109 => ⟨S1600000x1, .i32⟩
  | 110 => ⟨S50000x128, .f32⟩
  | 111 => ⟨S_, .f32⟩
  | 112 => ⟨S1600000, .f32⟩
  | 113 => ⟨S_, .f32⟩
  | 114 => ⟨S50000, .f32⟩
  | 115 => ⟨S1600000x1, .i32⟩
  | 116 => ⟨S50000, .f32⟩
  | 117 => ⟨S_, .f32⟩
  | 118 => ⟨S50000, .f32⟩
  | 119 => ⟨S50000, .f32⟩
  | 120 => ⟨S50000x1, .f32⟩
  | 121 => ⟨S50000x128, .f32⟩
  | 122 => ⟨S50000x128, .f32⟩
  | 123 => ⟨S50000x128, .f32⟩
  | 124 => ⟨S1x128, .f32⟩
  | 125 => ⟨S50000x128, .f32⟩
  | 126 => ⟨S50000x128, .f32⟩
  | 127 => ⟨S50000x128, .f32⟩
  | _ => ⟨S50000x128, .f32⟩

abbrev hbmTy0_1 (i : Nat) : BufTy := match i % 128 with
  | 0 => ⟨S50000x128, .f32⟩
  | 1 => ⟨S50000x2, .f32⟩
  | 2 => ⟨S1x2, .f32⟩
  | 3 => ⟨S50000x2, .f32⟩
  | 4 => ⟨S50000x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_1 : Ref sig .tc := ⟨.hbm, 35, rfl⟩
abbrev main_v14 : Ref sig .tc := ⟨.hbm, 36, rfl⟩
abbrev main_cst_2 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_3 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_4 : Ref sig .tc := ⟨.hbm, 57, rfl⟩
abbrev main_v33 : Ref sig .tc := ⟨.hbm, 58, rfl⟩
abbrev main_v34 : Ref sig .tc := ⟨.hbm, 59, rfl⟩
abbrev main_c_5 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_6 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_7 : Ref sig .tc := ⟨.hbm, 70, rfl⟩
abbrev main_v43 : Ref sig .tc := ⟨.hbm, 71, rfl⟩
abbrev main_cst_8 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_9 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_call0_cst : Ref sig .tc := ⟨.hbm, 88, rfl⟩
abbrev main_call0_v0 : Ref sig .tc := ⟨.hbm, 89, rfl⟩
abbrev main_v58 : Ref sig .tc := ⟨.hbm, 90, rfl⟩
abbrev main_call1_cst : Ref sig .tc := ⟨.hbm, 91, rfl⟩
abbrev main_call1_v0 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_c_10 : Ref sig .tc := ⟨.hbm, 98, rfl⟩
abbrev main_v64 : Ref sig .tc := ⟨.hbm, 99, rfl⟩
abbrev main_v65 : Ref sig .tc := ⟨.hbm, 100, rfl⟩
abbrev main_c_11 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_12 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_cst_13 : Ref sig .tc := ⟨.hbm, 111, rfl⟩
abbrev main_v74 : Ref sig .tc := ⟨.hbm, 112, rfl⟩
abbrev main_cst_14 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_cst_15 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  scatter_S50000_S1600000x1_S1600000_n_0_0_1_wf : ScatterDims.WF S50000 S1600000x1 S1600000 [] [0] [0] 1
  dot_S50000x128_S128x128_S50000x128_1_0_0_1_n_n_wf : DotDims.WF S50000x128 S128x128 S50000x128 [1] [0] [0] [1] [] []
  dot_S50000x128_S128x2_S50000x2_1_0_0_1_n_n_wf : DotDims.WF S50000x128 S128x2 S50000x2 [1] [0] [0] [1] [] []

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x2_S50000x2_1_0_0_1_n_n : DotDims S50000x128 S128x2 S50000x2 where
  lhsContracting := [1]
  rhsContracting := [0]
  lhsNonContracting := [0]
  rhsNonContracting := [1]
  lhsBatch := []
  rhsBatch := []
  wf := dot_S50000x128_S128x2_S50000x2_1_0_0_1_n_n_wf

class Facts : Prop extends Facts₀ where

variable [Facts]
-- ==== Proof.SageSpec.lean ====
/-
  What both programs compute, index by index, on the extended reals.

  A GraphSAGE layer takes, for every destination node r, the mean a_r of its in-neighbours' features and its own
  features x_r (two rows of length d) and returns the row
      ( Σ_k a_r[k] · Wl[k, q]  +  b[q]  +  Σ_k x_r[k] · Wr[k, q] )_q ,
  the first layer followed by max(·, 0). The second layer's row is fed to a linear head:
      Σ_k h_r[k] · W[k, q] + c[q].
  Every sum is a plain finite sum over the contracted axis; nothing here depends on how the rows are tiled.
-/
import Idealize.ShloMosaic.Lib.ValueIdx
import Idealize.ShloMosaic.PureOps.Ideal

noncomputable section

namespace Cert.Sage

open Idealize.ShloMosaic Idealize.ShloMosaic.ValueIdx

/-- An n × d array of extended reals. -/
abbrev Mat (n d : ℕ) : Type := FVec Ideal ⟨2, ![n, d]⟩ .f32
/-- A length-d vector of extended reals. -/
abbrev Vec1 (d : ℕ) : Type := FVec Ideal ⟨1, ![d]⟩ .f32

/-- Entry q of  a · Wl + b + x · Wr  for one pair of rows a, x. -/
def affineRow {d e : ℕ} (a x : Fin d → EReal) (wl wr : Mat d e) (b : Vec1 e) (q : Fin e) : EReal :=
  (∑ k : Fin d, a k * wl (ix2 k q)) + b (ix1 q) + ∑ k : Fin d, x k * wr (ix2 k q)

/-- The word of +0.0, as both programs print it. -/
abbrev zeroWord : EReal := Ideal.ofBits .f32 0x00000000#32

/-- A first-layer SAGE step on n nodes: row r, column q is max(affineRow of rows r of A and X, 0). -/
def layer {n : ℕ} (A X : Mat n 128) (wl wr : Mat 128 128) (b : Vec1 128) : Mat n 128 :=
  fun i => max (affineRow (fun k => A (ix2 (i 0) k)) (fun k => X (ix2 (i 0) k)) wl wr b (i 1)) zeroWord

/-- The second-layer SAGE step (no max) followed by the linear head: row r, column q is
    Σ_k affineRow(rows r of A and X)[k] · W[k, q] + c[q]. -/
def head {n : ℕ} (A X : Mat n 128) (wl wr : Mat 128 128) (b : Vec1 128) (w : Mat 128 2) (c : Vec1 2) : Mat n 2 :=
  fun i => (∑ k : Fin 128, affineRow (fun j => A (ix2 (i 0) j)) (fun j => X (ix2 (i 0) j)) wl wr b k * w (ix2 k (i 1)))
    + c (ix1 (i 1))

end Cert.Sage

end
-- ==== Proof.SagePayload.lean ====
/-
  The body of each of the three kernels, read at one entry of its output block.

  A first-layer kernel stores, for a block of 5000 rows, max(A·Wl + b + X·Wr, 0); the last kernel stores
  (A·Wl + b + X·Wr)·W + c. At the ideal values a product into a zero accumulator is the plain sum over the contracted
  axis, a row vector cast to one row and broadcast down the rows reads its entry at the column, and the remaining
  operations act entry by entry. So entry (p, q) of a stored block depends on row p of the two loaded blocks only.
-/
import proofs.«161901_j45689862094941_1_alg».proof.Proof.Gen.KernelIdeal.Skeleton
import proofs.«161901_j45689862094941_1_alg».proof.Proof.SageSpec
import Idealize.ShloMosaic.Lib.ValueIdx
import Idealize.ShloMosaic.Lib.ValueLayout
import Idealize.ShloMosaic.Lib.Pipeline.Value
import Idealize.ShloMosaic.PureOps.Ideal.Laws

noncomputable section

namespace Cert.SagePayload

open Idealize.ShloMosaic Idealize.ShloMosaic.ValueIdx Cert.KernelIdeal Cert.KernelIdeal.Gen

/-! ## The two products at an entry -/

theorem lhs128_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs128_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs128_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs128_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A product of a 5000 × 128 block with a 128 × 128 matrix into the zero block: entry (p, q) is the sum over the
    contracted axis. -/
theorem matmul128 (A : Vec Ideal S5000x128 .f32) (W : Vec Ideal S128x128 .f32) (p : Fin 5000) (q : Fin 128) :
    matmul (F := Ideal) (φ₁ := .f32) (φ₂ := .f32) dot_S5000x128_S128x128_S5000x128_1_0_0_1_n_n none A W (constant (F := Ideal) S5000x128 .f32 0x00000000#32) (ix2 p q)
      = ∑ k : Fin 128, A (ix2 p k) * W (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs128_0 _ _
    | ⟨1, _⟩ => exact (lhs128_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs128_0 _ _).trans hk
    | ⟨1, _⟩ => exact rhs128_1 _ _)
  rw [el, er]

theorem lhs2_0 (i : S5000x2.Idx) (q : dot_S5000x128_S128x2_S5000x2_1_0_0_1_n_n.contr.Idx) :
    (dot_S5000x128_S128x2_S5000x2_1_0_0_1_n_n.lhsIdx i q 0).val = (i 0).val := by
  unfold DotDims.lhsIdx
  rw [dif_neg (show ¬(0 : Fin S5000x128.rank) ∈ dot_S5000x128_S128x2_S5000x2_1_0_0_1_n_n.lhsBatch by decide), dif_pos (show (0 : Fin S5000x128.rank) ∈ dot_S5000x128_S128x2_S5000x2_1_0_0_1_n_n.lhsNonContracting by decide)]
  rfl
theorem lhs2_1 (i : S5000x2.Idx) (q : dot_S5000x128_S128x2_S5000x2_1_0_0_1_n_n.contr.Idx) :
    (dot_S5000x128_S128x2_S5000x2_1_0_0_1_n_n.lhsIdx i q 1).val = (q ⟨0, by decide⟩).val :=
  dot_S5000x128_S128x2_S5000x2_1_0_0_1_n_n.lhsIdx_val_of_single rfl i q
theorem rhs2_0 (i : S5000x2.Idx) (q : dot_S5000x128_S128x2_S5000x2_1_0_0_1_n_n.contr.Idx) :
    (dot_S5000x128_S128x2_S5000x2_1_0_0_1_n_n.rhsIdx i q 0).val = (q ⟨0, by decide⟩).val :=
  dot_S5000x128_S128x2_S5000x2_1_0_0_1_n_n.rhsIdx_val_of_single rfl i q
theorem rhs2_1 (i : S5000x2.Idx) (q : dot_S5000x128_S128x2_S5000x2_1_0_0_1_n_n.contr.Idx) :
    (dot_S5000x128_S128x2_S5000x2_1_0_0_1_n_n.rhsIdx i q 1).val = (i 1).val := by
  unfold DotDims.rhsIdx
  rw [dif_neg (show ¬(1 : Fin S128x2.rank) ∈ dot_S5000x128_S128x2_S5000x2_1_0_0_1_n_n.rhsBatch by decide), dif_pos (show (1 : Fin S128x2.rank) ∈ dot_S5000x128_S128x2_S5000x2_1_0_0_1_n_n.rhsNonContracting by decide)]
  rfl

/-- A product of a 5000 × 128 block with a 128 × 2 matrix into the zero block: entry (p, q) is the sum over the
    contracted axis. -/
theorem matmul2 (A : Vec Ideal S5000x128 .f32) (W : Vec Ideal S128x2 .f32) (p : Fin 5000) (q : Fin 2) :
    matmul (F := Ideal) (φ₁ := .f32) (φ₂ := .f32) dot_S5000x128_S128x2_S5000x2_1_0_0_1_n_n none A W (constant (F := Ideal) S5000x2 .f32 0x00000000#32) (ix2 p q)
      = ∑ k : Fin 128, A (ix2 p k) * W (ix2 k q) := by
  simp only [matmul]
  rw [Ideal.matmul_constant_zero_apply, ← Equiv.sum_comp (ValueIdx.contrEquiv1 dot_S5000x128_S128x2_S5000x2_1_0_0_1_n_n 128 rfl rfl).symm]
  refine Finset.sum_congr rfl fun k _ => ?_
  have hk := ValueIdx.contrEquiv1_symm_val dot_S5000x128_S128x2_S5000x2_1_0_0_1_n_n 128 rfl rfl k
  have el : dot_S5000x128_S128x2_S5000x2_1_0_0_1_n_n.lhsIdx (ix2 p q) ((ValueIdx.contrEquiv1 dot_S5000x128_S128x2_S5000x2_1_0_0_1_n_n 128 rfl rfl).symm k) = ix2 p k := funext fun a => Fin.ext (by
    match a with
    | ⟨0, _⟩ => exact lhs2_0 _ _
    | ⟨1, _⟩ => exact (lhs2_1 _ _).trans hk)
  have er : dot_S5000x128_S128x2_S5000x2_1_0_0_1_n_n.rhsIdx (ix2 p q) ((ValueIdx.contrEquiv1 dot_S5000x128_S128x2_S5000x2_1_0_0_1_n_n 128 rfl rfl).symm k) = ix2 k q := funext fun a => Fin.ext (by
    match a with
    | ⟨0, _⟩ => exact (rhs2_0 _ _).trans hk
    | ⟨1, _⟩ => exact rhs2_1 _ _)
  rw [el, er]

/-! ## The bias row at an entry -/

/-- A length-128 vector cast to one row and broadcast down 5000 rows reads, at (p, q), its entry q. -/
theorem bias128 (b : Vec Ideal S128 .f32) (p : Fin 5000) (q : Fin 128) :
    broadcastTo S5000x128 (shapeCast S1x128 b shapeCasts_S128_S1x128) broadcasts_S1x128_S5000x128 (ix2 p q) = b (ix1 q) := by
  refine (broadcastTo_1b_ab_apply _ broadcasts_S1x128_S5000x128 p q).trans ?_
  refine shapeCast_apply b shapeCasts_S128_S1x128 (ix2 (0 : Fin 1) q) (ix1 q) ?_
  rw [Shape.rowMajor_val_two, Shape.rowMajor_val_one]
  show q.val = 0 * 128 + q.val
  omega

/-- A length-2 vector cast to one row and broadcast down 5000 rows reads, at (p, q), its entry q. -/
theorem bias2 (b : Vec Ideal S2 .f32) (p : Fin 5000) (q : Fin 2) :
    broadcastTo S5000x2 (shapeCast S1x2 b shapeCasts_S2_S1x2) broadcasts_S1x2_S5000x2 (ix2 p q) = b (ix1 q) := by
  refine (broadcastTo_1b_ab_apply _ broadcasts_S1x2_S5000x2 p q).trans ?_
  refine shapeCast_apply b shapeCasts_S2_S1x2 (ix2 (0 : Fin 1) q) (ix1 q) ?_
  rw [Shape.rowMajor_val_two, Shape.rowMajor_val_one]
  show q.val = 0 * 2 + q.val
  omega

/-! ## The affine part of each body at an entry -/

/-- The block A·Wl + b + X·Wr, as each body forms it, at entry (p, q). -/
theorem affine_apply (x0 x1 : Vec Ideal S5000x128 .f32) (w0 w1 : Vec Ideal S128x128 .f32) (b : Vec Ideal S128 .f32)
    (p : Fin 5000) (q : Fin 128) :
    addf (addf (matmul (F := Ideal) (φ₁ := .f32) (φ₂ := .f32) dot_S5000x128_S128x128_S5000x128_1_0_0_1_n_n none x0 w0 (constant (F := Ideal) S5000x128 .f32 0x00000000#32))
          (broadcastTo S5000x128 (shapeCast S1x128 b shapeCasts_S128_S1x128) broadcasts_S1x128_S5000x128))
        (matmul (F := Ideal) (φ₁ := .f32) (φ₂ := .f32) dot_S5000x128_S128x128_S5000x128_1_0_0_1_n_n none x1 w1 (constant (F := Ideal) S5000x128 .f32 0x00000000#32)) (ix2 p q)
      = Cert.Sage.affineRow (fun k => x0 (ix2 p k)) (fun k => x1 (ix2 p k)) w0 w1 b q := by
  rw [addf_apply, addf_apply, matmul128, matmul128, bias128]
  rfl

/-- Entry (p, q) of the first kernel's stored block. -/
theorem combine0_apply (x0 x1 : Vec Ideal S5000x128 .f32) (w0 w1 : Vec Ideal S128x128 .f32) (b : Vec Ideal S128 .f32)
    (p : Fin 5000) (q : Fin 128) :
    k0_pay1 (F := Ideal) x0 x1 w0 w1 b (ix2 p q)
      = max (Cert.Sage.affineRow (fun k => x0 (ix2 p k)) (fun k => x1 (ix2 p k)) w0 w1 b q) Cert.Sage.zeroWord := by
  unfold k0_pay1
  rw [shapeCast_self, maximumf_apply, affine_apply]
  rfl

/-- Entry (p, q) of the second kernel's stored block. -/
theorem combine1_apply (x0 x1 : Vec Ideal S5000x128 .f32) (w0 w1 : Vec Ideal S128x128 .f32) (b : Vec Ideal S128 .f32)
    (p : Fin 5000) (q : Fin 128) :
    k1_pay1 (F := Ideal) x0 x1 w0 w1 b (ix2 p q)
      = max (Cert.Sage.affineRow (fun k => x0 (ix2 p k)) (fun k => x1 (ix2 p k)) w0 w1 b q) Cert.Sage.zeroWord := by
  unfold k1_pay1
  rw [shapeCast_self, maximumf_apply, affine_apply]
  rfl

/-- Entry (p, q) of the last kernel's stored block. -/
theorem final_apply (x0 x1 : Vec Ideal S5000x128 .f32) (w0 w1 : Vec Ideal S128x128 .f32) (b : Vec Ideal S128 .f32)
    (lw : Vec Ideal S128x2 .f32) (lb : Vec Ideal S2 .f32) (p : Fin 5000) (q : Fin 2) :
    k2_pay1 (F := Ideal) x0 x1 w0 w1 b lw lb (ix2 p q)
      = (∑ k : Fin 128, Cert.Sage.affineRow (fun j => x0 (ix2 p j)) (fun j => x1 (ix2 p j)) w0 w1 b k * lw (ix2 k q))
        + lb (ix1 q) := by
  unfold k2_pay1
  rw [shapeCast_self, shapeCast_self, addf_apply, matmul2, bias2]
  refine congrArg (· + lb (ix1 q)) (Finset.sum_congr rfl fun k _ => ?_)
  rw [affine_apply]

end Cert.SagePayload

end
-- ==== Proof.SageBlocks0.lean ====
/-
  The array the first region leaves.

  The 50000 rows are cut into ten blocks of 5000; grid point t loads block t of the aggregated features and of the
  node's own features together with the two weight matrices and the bias whole, and stores block t of the output.
  Entry (p, q) of a stored block depends on row p of the two loaded blocks only, and row p of block t IS row
  t · 5000 + p of the array, so what point t writes back is block t of ONE function of the whole arrays: the SAGE
  layer of the specification. The ten blocks cover every row (row r lies in block r / 5000), hence the array ends
  holding that function everywhere.
-/
import proofs.«161901_j45689862094941_1_alg».proof.Proof.Gen.KernelIdeal.Frame
import proofs.«161901_j45689862094941_1_alg».proof.Proof.SageSpec
import proofs.«161901_j45689862094941_1_alg».proof.Proof.SagePayload
import Idealize.ShloMosaic.Lib.Pipeline.Value
import Idealize.ShloMosaic.Lib.ValueIdx

set_option maxRecDepth 16384

noncomputable section

namespace Cert.SageBlocks0

open Idealize.ShloMosaic Idealize.ShloMosaic.ValueIdx Idealize.ShloMosaic.TcCoe Idealize.SL.Sem
open Cert.KernelIdeal Cert.KernelIdeal.Gen
open Idealize.ShloMosaic.Pipeline (Dat Cfg Window)

-- the buffer contents the region is entered with: any
variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- The printed index maps over the ten grid points: the two row-blocked inputs move with the output's row block and
    stay at column block 0; the weights and the bias stay at block 0; the output's row block is at most 9. -/
theorem index_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) ≤ 9 ∧ win0_5.index t (1 : Fin 2) = 0 :=
  (by decide +kernel : ∀ t : Fin grid0.N, _)

/-- Every row block is some grid point's. -/
theorem index_onto : ∀ q0 : Fin 10, ∃ t : Fin cfg0.N, win0_5.index t (0 : Fin 2) = q0.val :=
  (by decide +kernel : ∀ q0 : Fin 10, ∃ t : Fin grid0.N, win0_5.index t (0 : Fin 2) = q0.val)

/-! ## The loaded blocks, by their literal types -/

abbrev aggBlk (c : Dev nD) (t : Fin cfg0.N) : Vec Ideal S5000x128 .f32 := iblk0 V c 0 t
abbrev ownBlk (c : Dev nD) (t : Fin cfg0.N) : Vec Ideal S5000x128 .f32 := iblk0 V c 1 t
abbrev wlBlk (c : Dev nD) (t : Fin cfg0.N) : Vec Ideal S128x128 .f32 := iblk0 V c 2 t
abbrev biasBlk (c : Dev nD) (t : Fin cfg0.N) : Vec Ideal S128 .f32 := iblk0 V c 3 t
abbrev wrBlk (c : Dev nD) (t : Fin cfg0.N) : Vec Ideal S128x128 .f32 := iblk0 V c 4 t

/-- Row p of block t of the aggregated features is row t · 5000 + p of the array. -/
theorem aggBlk_apply (c : Dev nD) (t : Fin cfg0.N) (p : Fin 5000) (k : Fin 128) (r : Fin 50000)
    (hr : r.val = win0_5.index t (0 : Fin 2) * 5000 + p.val) :
    aggBlk V c t (ix2 p k) = (V c main_v22 : Vec Ideal S50000x128 .f32) (ix2 r k) := by
  obtain ⟨e00, e01, -⟩ := index_facts t
  show (V c main_v22 : Vec Ideal S50000x128 .f32) (((cfg0.win 0).blk t).view.emb (ix2 p k)) = _
  refine congrArg _ (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- The same for the node's own features. -/
theorem ownBlk_apply (c : Dev nD) (t : Fin cfg0.N) (p : Fin 5000) (k : Fin 128) (r : Fin 50000)
    (hr : r.val = win0_5.index t (0 : Fin 2) * 5000 + p.val) :
    ownBlk V c t (ix2 p k) = (V c main_arg1 : Vec Ideal S50000x128 .f32) (ix2 r k) := by
  obtain ⟨-, -, e10, e11, -⟩ := index_facts t
  show (V c main_arg1 : Vec Ideal S50000x128 .f32) (((cfg0.win 1).blk t).view.emb (ix2 p k)) = _
  refine congrArg _ (funext fun a => Fin.ext ?_)
  match a with
  | ⟨0, _⟩ => show win0_1.index t (0 : Fin 2) * 5000 + 1 * p.val = r.val; omega
  | ⟨1, _⟩ => show win0_1.index t (1 : Fin 2) * 128 + 1 * k.val = k.val; omega

/-- The left weights are loaded whole. -/
theorem wlBlk_eq (c : Dev nD) (t : Fin cfg0.N) : wlBlk V c t = (V c main_arg4 : Vec Ideal S128x128 .f32) := by
  obtain ⟨-, -, -, -, e20, e21, -⟩ := index_facts t
  funext y
  show (V c main_arg4 : Vec Ideal S128x128 .f32) (((cfg0.win 2).blk t).view.emb y) = _
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The bias is loaded whole. -/
theorem biasBlk_eq (c : Dev nD) (t : Fin cfg0.N) : biasBlk V c t = (V c main_arg5 : Vec Ideal S128 .f32) := by
  obtain ⟨-, -, -, -, -, -, e30, -⟩ := index_facts t
  funext y
  show (V c main_arg5 : Vec Ideal S128 .f32) (((cfg0.win 3).blk t).view.emb y) = _
  refine congrArg _ (funext fun a => Fin.ext ?_)
  match a with
  | ⟨0, _⟩ => show win0_3.index t (0 : Fin 1) * 128 + 1 * (y 0).val = (y 0).val; omega

/-- The right weights are loaded whole. -/
theorem wrBlk_eq (c : Dev nD) (t : Fin cfg0.N) : wrBlk V c t = (V c main_arg6 : Vec Ideal S128x128 .f32) := by
  obtain ⟨-, -, -, -, -, -, -, e40, e41, -⟩ := index_facts t
  funext y
  show (V c main_arg6 : Vec Ideal S128x128 .f32) (((cfg0.win 4).blk t).view.emb y) = _
  refine congrArg _ (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

/-! ## The whole-array function, and what a point writes back -/

/-- The SAGE layer of the arrays the region is entered with. -/
abbrev out (c : Dev nD) : Vec Ideal S50000x128 .f32 :=
  Cert.Sage.layer (V c main_v22 : Vec Ideal S50000x128 .f32) (V c main_arg1 : Vec Ideal S50000x128 .f32)
    (V c main_arg4 : Vec Ideal S128x128 .f32) (V c main_arg6 : Vec Ideal S128x128 .f32) (V c main_arg5 : Vec Ideal S128 .f32)

/-- What point t writes back is block t of `out`. -/
theorem flushed_eq (c : Dev nD) (t : Fin cfg0.N) :
    (dat0 (F := Ideal) V c).flushed 5 t = ((cfg0.win 5).blk t).view.read (Elt Ideal) (out V c) := by
  show (cfg0.win 5).cut (grid0.coords t) ((dat0 (F := Ideal) V c).after 5 t) = _
  rw [after0_5]
  unfold out0_5
  rw [View.canon_unit_zero zeros2]
  simp only [View.ld_unit_zero (S := S5000x128) zeros2, View.ld_unit_zero (S := S128x128) zeros2, View.ld_unit_zero (S := S128) zeros1]
  obtain ⟨-, -, -, -, -, -, -, -, -, e50, e51⟩ := index_facts t
  funext j
  obtain ⟨p, q, rfl⟩ : ∃ (p : Fin 5000) (q : Fin 128), j = ix2 p q := ⟨j 0, j 1, eq_ix2 j⟩
  have hp : p.val < 5000 := p.isLt
  let r : Fin 50000 := ⟨win0_5.index t (0 : Fin 2) * 5000 + p.val, by omega⟩
  have hr : r.val = win0_5.index t (0 : Fin 2) * 5000 + p.val := rfl
  have hemb : ((cfg0.win 5).blk t).view.emb (ix2 p q) = (ix2 r q : S50000x128.Idx) := by
    funext a; apply Fin.ext
    match a with
    | ⟨0, _⟩ => show win0_5.index t (0 : Fin 2) * 5000 + 1 * p.val = r.val; omega
    | ⟨1, _⟩ => show win0_5.index t (1 : Fin 2) * 128 + 1 * q.val = q.val; omega
  show k0_pay1 (F := Ideal) (aggBlk V c t) (ownBlk V c t) (wlBlk V c t) (wrBlk V c t) (biasBlk V c t) (ix2 p q)
    = out V c (((cfg0.win 5).blk t).view.emb (ix2 p q))
  rw [hemb]
  refine (Cert.SagePayload.combine0_apply (aggBlk V c t) (ownBlk V c t) (wlBlk V c t) (wrBlk V c t) (biasBlk V c t) p q).trans ?_
  rw [wlBlk_eq V c t, wrBlk_eq V c t, biasBlk_eq V c t,
    show (fun k : Fin 128 => aggBlk V c t (ix2 p k)) = fun k => (V c main_v22 : Vec Ideal S50000x128 .f32) (ix2 r k) from
      funext fun k => aggBlk_apply V c t p k r hr,
    show (fun k : Fin 128 => ownBlk V c t (ix2 p k)) = fun k => (V c main_arg1 : Vec Ideal S50000x128 .f32) (ix2 r k) from
      funext fun k => ownBlk_apply V c t p k r hr]
  rfl

/-! ## The blocks cover the array -/

/-- An index of the array is in point t's block iff each coordinate is in the block's range on its axis. -/
theorem mem_blk (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v46).slice (win0_5.rect t)).set ↔ _
  rw [View.set_slice_whole, Rect.mem_set_unit]
  exact Iff.rfl

/-- Row r lies in the block of the point whose row block is r / 5000. -/
theorem cover (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := index_onto ⟨(i 0).val / 5000, by omega⟩
  have ht' : win0_5.index t (0 : Fin 2) = (i 0).val / 5000 := ht
  obtain ⟨-, -, -, -, -, -, -, -, -, e50, e51⟩ := index_facts t
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- THE ARRAY after the region: the SAGE layer of the arrays it was entered with. -/
theorem array_eq (c : Dev nD) : (dat0 (F := Ideal) V c).arrAt 5 cfg0.N = out V c :=
  (dat0 (F := Ideal) V c).arrAt_eq_of_cover 5 (out V c) (fun t _ => flushed_eq V c t) cover

end Cert.SageBlocks0

end
-- ==== Proof.SageBlocks2.lean ====
/-
  The array the last region leaves.

  As in the two layers before it, the 50000 rows are cut into ten blocks of 5000: grid point t loads block t of the
  aggregated hidden features and of the other hidden features, the two weight matrices, the bias, the head's
  128 × 2 matrix and its two-entry bias whole, and stores block t of the 50000 × 2 output. Entry (p, q) of a stored
  block depends on row p of the two loaded blocks only, and row p of block t is row t · 5000 + p of the array, so what
  point t writes back is block t of ONE function of the whole arrays: the specification's second SAGE step followed by
  the linear head. The ten blocks cover every row, hence the array ends holding that function everywhere.
-/
import proofs.«161901_j45689862094941_1_alg».proof.Proof.Gen.KernelIdeal.Frame
import proofs.«161901_j45689862094941_1_alg».proof.Proof.SageSpec
import proofs.«161901_j45689862094941_1_alg».proof.Proof.SagePayload
import Idealize.ShloMosaic.Lib.Pipeline.Value
import Idealize.ShloMosaic.Lib.ValueIdx

set_option maxRecDepth 16384

noncomputable section

namespace Cert.SageBlocks2

open Idealize.ShloMosaic Idealize.ShloMosaic.ValueIdx Idealize.ShloMosaic.TcCoe Idealize.SL.Sem
open Cert.KernelIdeal Cert.KernelIdeal.Gen
open Idealize.ShloMosaic.Pipeline (Dat Cfg Window)

-- the buffer contents the region is entered with: any
variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- The printed index maps over the ten grid points: the two row-blocked inputs move with the output's row block and
    stay at column block 0; every other input stays at block 0; the output's row block is at most 9. -/
theorem index_facts : ∀ t : Fin cfg2.N,
    win2_0.index t (0 : Fin 2) = win2_7.index t (0 : Fin 2) ∧ win2_0.index t (1 : Fin 2) = 0
    ∧ win2_1.index t (0 : Fin 2) = win2_7.index t (0 : Fin 2) ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 1) = 0
    ∧ win2_7.index t (0 : Fin 2) ≤ 9 ∧ win2_7.index t (1 : Fin 2) = 0 :=
  (by decide +kernel : ∀ t : Fin grid2.N, _)

/-- Every row block is some grid point's. -/
theorem index_onto : ∀ q0 : Fin 10, ∃ t : Fin cfg2.N, win2_7.index t (0 : Fin 2) = q0.val :=
  (by decide +kernel : ∀ q0 : Fin 10, ∃ t : Fin grid2.N, win2_7.index t (0 : Fin 2) = q0.val)

/-! ## The loaded blocks, by their literal types -/

abbrev aggBlk (c : Dev nD) (t : Fin cfg2.N) : Vec Ideal S5000x128 .f32 := iblk2 V c 0 t
abbrev ownBlk (c : Dev nD) (t : Fin cfg2.N) : Vec Ideal S5000x128 .f32 := iblk2 V c 1 t
abbrev wlBlk (c : Dev nD) (t : Fin cfg2.N) : Vec Ideal S128x128 .f32 := iblk2 V c 2 t
abbrev biasBlk (c : Dev nD) (t : Fin cfg2.N) : Vec Ideal S128 .f32 := iblk2 V c 3 t
abbrev wrBlk (c : Dev nD) (t : Fin cfg2.N) : Vec Ideal S128x128 .f32 := iblk2 V c 4 t
abbrev headBlk (c : Dev nD) (t : Fin cfg2.N) : Vec Ideal S128x2 .f32 := iblk2 V c 5 t
abbrev headBiasBlk (c : Dev nD) (t : Fin cfg2.N) : Vec Ideal S2 .f32 := iblk2 V c 6 t

/-- Row p of block t of the aggregated hidden features is row t · 5000 + p of the array. -/
theorem aggBlk_apply (c : Dev nD) (t : Fin cfg2.N) (p : Fin 5000) (k : Fin 128) (r : Fin 50000)
    (hr : r.val = win2_7.index t (0 : Fin 2) * 5000 + p.val) :
    aggBlk V c t (ix2 p k) = (V c main_v70 : Vec Ideal S50000x128 .f32) (ix2 r k) := by
  obtain ⟨e00, e01, -⟩ := index_facts t
  show (V c main_v70 : Vec Ideal S50000x128 .f32) (((cfg2.win 0).blk t).view.emb (ix2 p k)) = _
  refine congrArg _ (funext fun a => Fin.ext ?_)
  match a with
  | ⟨0, _⟩ => show win2_0.index t (0 : Fin 2) * 5000 + 1 * p.val = r.val; omega
  | ⟨1, _⟩ => show win2_0.index t (1 : Fin 2) * 128 + 1 * k.val = k.val; omega

/-- The same for the other hidden features. -/
theorem ownBlk_apply (c : Dev nD) (t : Fin cfg2.N) (p : Fin 5000) (k : Fin 128) (r : Fin 50000)
    (hr : r.val = win2_7.index t (0 : Fin 2) * 5000 + p.val) :
    ownBlk V c t (ix2 p k) = (V c main_v46 : Vec Ideal S50000x128 .f32) (ix2 r k) := by
  obtain ⟨-, -, e10, e11, -⟩ := index_facts t
  show (V c main_v46 : Vec Ideal S50000x128 .f32) (((cfg2.win 1).blk t).view.emb (ix2 p k)) = _
  refine congrArg _ (funext fun a => Fin.ext ?_)
  match a with
  | ⟨0, _⟩ => show win2_1.index t (0 : Fin 2) * 5000 + 1 * p.val = r.val; omega
  | ⟨1, _⟩ => show win2_1.index t (1 : Fin 2) * 128 + 1 * k.val = k.val; omega

/-- The left weights are loaded whole. -/
theorem wlBlk_eq (c : Dev nD) (t : Fin cfg2.N) : wlBlk V c t = (V c main_arg10 : Vec Ideal S128x128 .f32) := by
  obtain ⟨-, -, -, -, e20, e21, -⟩ := index_facts t
  funext y
  show (V c main_arg10 : Vec Ideal S128x128 .f32) (((cfg2.win 2).blk t).view.emb y) = _
  refine congrArg _ (funext fun a => Fin.ext ?_)
  match a with
  | ⟨0, _⟩ => show win2_2.index t (0 : Fin 2) * 128 + 1 * (y 0).val = (y 0).val; omega
  | ⟨1, _⟩ => show win2_2.index t (1 : Fin 2) * 128 + 1 * (y 1).val = (y 1).val; omega

/-- The bias is loaded whole. -/
theorem biasBlk_eq (c : Dev nD) (t : Fin cfg2.N) : biasBlk V c t = (V c main_arg11 : Vec Ideal S128 .f32) := by
  obtain ⟨-, -, -, -, -, -, e30, -⟩ := index_facts t
  funext y
  show (V c main_arg11 : Vec Ideal S128 .f32) (((cfg2.win 3).blk t).view.emb y) = _
  refine congrArg _ (funext fun a => Fin.ext ?_)
  match a with
  | ⟨0, _⟩ => show win2_3.index t (0 : Fin 1) * 128 + 1 * (y 0).val = (y 0).val; omega

/-- The right weights are loaded whole. -/
theorem wrBlk_eq (c : Dev nD) (t : Fin cfg2.N) : wrBlk V c t = (V c main_arg12 : Vec Ideal S128x128 .f32) := by
  obtain ⟨-, -, -, -, -, -, -, e40, e41, -⟩ := index_facts t
  funext y
  show (V c main_arg12 : Vec Ideal S128x128 .f32) (((cfg2.win 4).blk t).view.emb y) = _
  refine congrArg _ (funext fun a => Fin.ext ?_)
  match a with
  | ⟨0, _⟩ => show win2_4.index t (0 : Fin 2) * 128 + 1 * (y 0).val = (y 0).val; omega
  | ⟨1, _⟩ => show win2_4.index t (1 : Fin 2) * 128 + 1 * (y 1).val = (y 1).val; omega

/-- The head's matrix is loaded whole. -/
theorem headBlk_eq (c : Dev nD) (t : Fin cfg2.N) : headBlk V c t = (V c main_arg16 : Vec Ideal S128x2 .f32) := by
  obtain ⟨-, -, -, -, -, -, -, -, -, e50, e51, -⟩ := index_facts t
  funext y
  show (V c main_arg16 : Vec Ideal S128x2 .f32) (((cfg2.win 5).blk t).view.emb y) = _
  refine congrArg _ (funext fun a => Fin.ext ?_)
  match a with
  | ⟨0, _⟩ => show win2_5.index t (0 : Fin 2) * 128 + 1 * (y 0).val = (y 0).val; omega
  | ⟨1, _⟩ => show win2_5.index t (1 : Fin 2) * 2 + 1 * (y 1).val = (y 1).val; omega

/-- The head's bias is loaded whole. -/
theorem headBiasBlk_eq (c : Dev nD) (t : Fin cfg2.N) : headBiasBlk V c t = (V c main_arg17 : Vec Ideal S2 .f32) := by
  obtain ⟨-, -, -, -, -, -, -, -, -, -, -, e60, -⟩ := index_facts t
  funext y
  show (V c main_arg17 : Vec Ideal S2 .f32) (((cfg2.win 6).blk t).view.emb y) = _
  refine congrArg _ (funext fun a => Fin.ext ?_)
  match a with
  | ⟨0, _⟩ => show win2_6.index t (0 : Fin 1) * 2 + 1 * (y 0).val = (y 0).val; omega

/-! ## The whole-array function, and what a point writes back -/

/-- The second SAGE step and the linear head of the arrays the region is entered with. -/
abbrev out (c : Dev nD) : Vec Ideal S50000x2 .f32 :=
  Cert.Sage.head (V c main_v70 : Vec Ideal S50000x128 .f32) (V c main_v46 : Vec Ideal S50000x128 .f32)
    (V c main_arg10 : Vec Ideal S128x128 .f32) (V c main_arg12 : Vec Ideal S128x128 .f32) (V c main_arg11 : Vec Ideal S128 .f32)
    (V c main_arg16 : Vec Ideal S128x2 .f32) (V c main_arg17 : Vec Ideal S2 .f32)

/-- What point t writes back is block t of `out`. -/
theorem flushed_eq (c : Dev nD) (t : Fin cfg2.N) :
    (dat2 (F := Ideal) V c).flushed 7 t = ((cfg2.win 7).blk t).view.read (Elt Ideal) (out V c) := by
  show (cfg2.win 7).cut (grid2.coords t) ((dat2 (F := Ideal) V c).after 7 t) = _
  rw [after2_7]
  unfold out2_7
  rw [View.canon_unit_zero zeros2]
  simp only [View.ld_unit_zero (S := S5000x128) zeros2, View.ld_unit_zero (S := S128x128) zeros2, View.ld_unit_zero (S := S128) zeros1,
    View.ld_unit_zero (S := S128x2) zeros2, View.ld_unit_zero (S := S2) zeros1]
  obtain ⟨-, -, -, -, -, -, -, -, -, -, -, -, e70, e71⟩ := index_facts t
  funext j
  obtain ⟨p, q, rfl⟩ : ∃ (p : Fin 5000) (q : Fin 2), j = ix2 p q := ⟨j 0, j 1, eq_ix2 j⟩
  have hp : p.val < 5000 := p.isLt
  let r : Fin 50000 := ⟨win2_7.index t (0 : Fin 2) * 5000 + p.val, by omega⟩
  have hr : r.val = win2_7.index t (0 : Fin 2) * 5000 + p.val := rfl
  have hemb : ((cfg2.win 7).blk t).view.emb (ix2 p q) = (ix2 r q : S50000x2.Idx) := by
    funext a; apply Fin.ext
    match a with
    | ⟨0, _⟩ => show win2_7.index t (0 : Fin 2) * 5000 + 1 * p.val = r.val; omega
    | ⟨1, _⟩ => show win2_7.index t (1 : Fin 2) * 2 + 1 * q.val = q.val; omega
  show k2_pay1 (F := Ideal) (aggBlk V c t) (ownBlk V c t) (wlBlk V c t) (wrBlk V c t) (biasBlk V c t) (headBlk V c t) (headBiasBlk V c t) (ix2 p q)
    = out V c (((cfg2.win 7).blk t).view.emb (ix2 p q))
  rw [hemb]
  refine (Cert.SagePayload.final_apply (aggBlk V c t) (ownBlk V c t) (wlBlk V c t) (wrBlk V c t) (biasBlk V c t) (headBlk V c t)
    (headBiasBlk V c t) p q).trans ?_
  rw [wlBlk_eq V c t, wrBlk_eq V c t, biasBlk_eq V c t, headBlk_eq V c t, headBiasBlk_eq V c t,
    show (fun k : Fin 128 => aggBlk V c t (ix2 p k)) = fun k => (V c main_v70 : Vec Ideal S50000x128 .f32) (ix2 r k) from
      funext fun k => aggBlk_apply V c t p k r hr,
    show (fun k : Fin 128 => ownBlk V c t (ix2 p k)) = fun k => (V c main_v46 : Vec Ideal S50000x128 .f32) (ix2 r k) from
      funext fun k => ownBlk_apply V c t p k r hr]
  rfl

/-! ## The blocks cover the array -/

/-- An index of the array is in point t's block iff each coordinate is in the block's range on its axis. -/
theorem mem_blk (t : Fin cfg2.N) (i : S50000x2.Idx) :
    i ∈ ((cfg2.win 7).blk t).view.set ↔ ∀ a : Fin 2, win2_7.index t a * S5000x2.size a ≤ (i a).val
      ∧ (i a).val < win2_7.index t a * S5000x2.size a + S5000x2.size a := by
  show i ∈ ((View.whole main_v71).slice (win2_7.rect t)).set ↔ _
  rw [View.set_slice_whole, Rect.mem_set_unit]
  exact Iff.rfl

/-- Row r lies in the block of the point whose row block is r / 5000. -/
theorem cover (i : S50000x2.Idx) : ∃ t : Fin cfg2.N, (cfg2.win 7).flush t = true ∧ i ∈ ((cfg2.win 7).blk t).view.set := by
  have hi0 : (i 0).val < 50000 := (i 0).isLt
  have hi1 : (i 1).val < 2 := (i 1).isLt
  obtain ⟨t, ht⟩ := index_onto ⟨(i 0).val / 5000, by omega⟩
  have ht' : win2_7.index t (0 : Fin 2) = (i 0).val / 5000 := ht
  obtain ⟨-, -, -, -, -, -, -, -, -, -, -, -, e70, e71⟩ := index_facts t
  refine ⟨t, flush2_7 t, ?_⟩
  rw [mem_blk]
  intro a
  match a with
  | ⟨0, _⟩ => show win2_7.index t (0 : Fin 2) * 5000 ≤ (i 0).val ∧ (i 0).val < win2_7.index t (0 : Fin 2) * 5000 + 5000; omega
  | ⟨1, _⟩ => show win2_7.index t (1 : Fin 2) * 2 ≤ (i 1).val ∧ (i 1).val < win2_7.index t (1 : Fin 2) * 2 + 2; omega

/-- THE ARRAY after the region: the second SAGE step and the head of the arrays it was entered with. -/
theorem array_eq (c : Dev nD) : (dat2 (F := Ideal) V c).arrAt 7 cfg2.N = out V c :=
  (dat2 (F := Ideal) V c).arrAt_eq_of_cover 7 (out V c) (fun t _ => flushed_eq V c t) cover

end Cert.SageBlocks2

end
-- ==== Proof.KernelValue.lean ====
/-
  The kernel program's result as the specification's functions of its arguments.

  The program runs two stretches of host operations and three kernel regions. The first stretch computes, from the
  launch memory, the mean-aggregation of the student features along the student-to-studies edges and of the studies
  features along the studies-to-student edges; the first two regions turn each, with the other node type's own
  features and that layer's weights, into a hidden array (max(·, 0) of a SAGE step); the second stretch
  mean-aggregates the second hidden array along the student-to-studies edges; the last region applies the second SAGE
  step and the linear head. The mean-aggregation is the same composition of host operations each of the three times:
  it is carried as ONE function of a feature array and an edge list and never opened. Each host stretch is read at a
  generic valuation of the buffers, so that no large array term is ever traversed; every buffer a stretch or a region
  does not write is read back unchanged.
-/
import proofs.«161901_j45689862094941_1_alg».proof.Proof.Gen.KernelIdeal.Frame
import proofs.«161901_j45689862094941_1_alg».proof.Proof.Gen.ReferenceIdeal.Read
import proofs.«161901_j45689862094941_1_alg».proof.Proof.SageSpec
import proofs.«161901_j45689862094941_1_alg».proof.Proof.SageBlocks0
import proofs.«161901_j45689862094941_1_alg».proof.Proof.SageBlocks1
import proofs.«161901_j45689862094941_1_alg».proof.Proof.SageBlocks2
import Idealize.ShloMosaic.Lib.StableHlo.Run

set_option maxRecDepth 16384

noncomputable section

namespace Cert.KernelValue

open Idealize.ShloMosaic Idealize.ShloMosaic.TcCoe Idealize.SL.Sem Idealize.ShloMosaic.StableHlo
open Cert.KernelIdeal Cert.KernelIdeal.Gen

/-- Mean of the rows of a feature array gathered along an edge list, per destination node: one function, the
    composition of the gather, the two scatter-adds, the clamp of the counts at one and the quotient. -/
abbrev agg := @Cert.ReferenceIdeal.Read.val_main_v22 Ideal _

/-! ## The host stretches, at any valuation of the buffers -/

set_option maxHeartbeats 8000000 in
/-- After the first stretch the first region's five input arrays hold: the aggregation of argument 0 along argument 2,
    and arguments 1, 4, 6, 5 as they were. -/
theorem stretch0_first (W : Valuation τ sig (Elt Ideal)) :
    Cert.Sage.layer (n := 50000) (StableHlo.after hostOps0 W (Proc.devRef .tc main_v22))
        (StableHlo.after hostOps0 W (Proc.devRef .tc main_arg1)) (StableHlo.after hostOps0 W (Proc.devRef .tc main_arg4))
        (StableHlo.after hostOps0 W (Proc.devRef .tc main_arg6)) (StableHlo.after hostOps0 W (Proc.devRef .tc main_arg5))
      = Cert.Sage.layer (n := 50000) (agg (W (Proc.devRef .tc main_arg0)) (W (Proc.devRef .tc main_arg2)))
        (W (Proc.devRef .tc main_arg1)) (W (Proc.devRef .tc main_arg4)) (W (Proc.devRef .tc main_arg6)) (W (Proc.devRef .tc main_arg5)) := by
  after_results_simp
  rfl

set_option maxHeartbeats 8000000 in
/-- After the first stretch the second region's five input arrays hold: the aggregation of argument 1 along argument 3,
    and arguments 0, 7, 9, 8 as they were. -/
theorem stretch0_second (W : Valuation τ sig (Elt Ideal)) :
    Cert.Sage.layer (n := 50000) (StableHlo.after hostOps0 W (Proc.devRef .tc main_v45))
        (StableHlo.after hostOps0 W (Proc.devRef .tc main_arg0)) (StableHlo.after hostOps0 W (Proc.devRef .tc main_arg7))
        (StableHlo.after hostOps0 W (Proc.devRef .tc main_arg9)) (StableHlo.after hostOps0 W (Proc.devRef .tc main_arg8))
      = Cert.Sage.layer (n := 50000) (agg (W (Proc.devRef .tc main_arg1)) (W (Proc.devRef .tc main_arg3)))
        (W (Proc.devRef .tc main_arg0)) (W (Proc.devRef .tc main_arg7)) (W (Proc.devRef .tc main_arg9)) (W (Proc.devRef .tc main_arg8)) := by
  after_results_simp
  rfl

set_option maxHeartbeats 8000000 in
/-- The first stretch writes none of the arguments the last region reads. -/
theorem stretch0_keeps (W : Valuation τ sig (Elt Ideal)) :
    StableHlo.after hostOps0 W (Proc.devRef .tc main_arg2) = W (Proc.devRef .tc main_arg2)
    ∧ StableHlo.after hostOps0 W (Proc.devRef .tc main_arg10) = W (Proc.devRef .tc main_arg10)
    ∧ StableHlo.after hostOps0 W (Proc.devRef .tc main_arg11) = W (Proc.devRef .tc main_arg11)
    ∧ StableHlo.after hostOps0 W (Proc.devRef .tc main_arg12) = W (Proc.devRef .tc main_arg12)
    ∧ StableHlo.after hostOps0 W (Proc.devRef .tc main_arg16) = W (Proc.devRef .tc main_arg16)
    ∧ StableHlo.after hostOps0 W (Proc.devRef .tc main_arg17) = W (Proc.devRef .tc main_arg17) := by
  refine ⟨?_, ?_, ?_, ?_, ?_, ?_⟩ <;> (after_results_simp <;> rfl)

set_option maxHeartbeats 8000000 in
/-- After the second stretch the last region's seven input arrays hold: the aggregation of the second hidden array
    along argument 2, and the first hidden array and arguments 10, 12, 11, 16, 17 as they were. -/
theorem stretch2 (W : Valuation τ sig (Elt Ideal)) :
    Cert.Sage.head (n := 50000) (StableHlo.after hostOps2 W (Proc.devRef .tc main_v70))
        (StableHlo.after hostOps2 W (Proc.devRef .tc main_v46)) (StableHlo.after hostOps2 W (Proc.devRef .tc main_arg10))
        (StableHlo.after hostOps2 W (Proc.devRef .tc main_arg12)) (StableHlo.after hostOps2 W (Proc.devRef .tc main_arg11))
        (StableHlo.after hostOps2 W (Proc.devRef .tc main_arg16)) (StableHlo.after hostOps2 W (Proc.devRef .tc main_arg17))
      = Cert.Sage.head (n := 50000) (agg (W (Proc.devRef .tc main_v47)) (W (Proc.devRef .tc main_arg2)))
        (W (Proc.devRef .tc main_v46)) (W (Proc.devRef .tc main_arg10)) (W (Proc.devRef .tc main_arg12))
        (W (Proc.devRef .tc main_arg11)) (W (Proc.devRef .tc main_arg16)) (W (Proc.devRef .tc main_arg17)) := by
  after_results_simp
  rfl

/-! ## The run's buffers, boundary by boundary -/

variable (m : (ℓ : Loc nD τ sig) → Buf (Elt Ideal) ℓ) (ρ : Dev nD → PrngReg)

/-- The first hidden array (the studies side): the SAGE layer over the aggregated student features. -/
abbrev hiddenFirst (c : Dev nD) : Cert.Sage.Mat 50000 128 :=
  Cert.Sage.layer (n := 50000) (agg (m ((c : Thread nD τ).loc main_arg0)) (m ((c : Thread nD τ).loc main_arg2)))
    (m ((c : Thread nD τ).loc main_arg1)) (m ((c : Thread nD τ).loc main_arg4)) (m ((c : Thread nD τ).loc main_arg6))
    (m ((c : Thread nD τ).loc main_arg5))

/-- The second hidden array (the student side): the SAGE layer over the aggregated studies features. -/
abbrev hiddenSecond (c : Dev nD) : Cert.Sage.Mat 50000 128 :=
  Cert.Sage.layer (n := 50000) (agg (m ((c : Thread nD τ).loc main_arg1)) (m ((c : Thread nD τ).loc main_arg3)))
    (m ((c : Thread nD τ).loc main_arg0)) (m ((c : Thread nD τ).loc main_arg7)) (m ((c : Thread nD τ).loc main_arg9))
    (m ((c : Thread nD τ).loc main_arg8))

/-- After the first region its output array holds the first hidden array. -/
theorem W2_first (c : Dev nD) : W2 m ρ c (Proc.devRef .tc main_v46) = hiddenFirst m c :=
  (W2_arr m ρ c 5).trans ((Cert.SageBlocks0.array_eq (V1 m ρ) c).trans (stretch0_first (W0 m ρ c)))

/-- After the second region its output array holds the second hidden array. -/
theorem W3_second (c : Dev nD) : W3 m ρ c (Proc.devRef .tc main_v47) = hiddenSecond m c := by
  refine (W3_arr m ρ c 5).trans ((Cert.SageBlocks1.array_eq (V2 m ρ) c).trans ?_)
  show Cert.Sage.layer (n := 50000) (W2 m ρ c (Proc.devRef .tc main_v45)) (W2 m ρ c (Proc.devRef .tc main_arg0))
    (W2 m ρ c (Proc.devRef .tc main_arg7)) (W2 m ρ c (Proc.devRef .tc main_arg9)) (W2 m ρ c (Proc.devRef .tc main_arg8)) = _
  rw [W2_of_ne m ρ c main_v45 (by decide), W2_of_ne m ρ c main_arg0 (by decide), W2_of_ne m ρ c main_arg7 (by decide),
    W2_of_ne m ρ c main_arg9 (by decide), W2_of_ne m ρ c main_arg8 (by decide)]
  exact stretch0_second (W0 m ρ c)

/-- The second region leaves the first hidden array where it was. -/
theorem W3_first (c : Dev nD) : W3 m ρ c (Proc.devRef .tc main_v46) = hiddenFirst m c :=
  (W3_of_ne m ρ c main_v46 (by decide)).trans (W2_first m ρ c)

/-- An argument no stretch and no region before the last one writes is, at the last region's entry, as launched. -/
theorem W3_args (c : Dev nD) :
    W3 m ρ c (Proc.devRef .tc main_arg2) = m ((c : Thread nD τ).loc main_arg2)
    ∧ W3 m ρ c (Proc.devRef .tc main_arg10) = m ((c : Thread nD τ).loc main_arg10)
    ∧ W3 m ρ c (Proc.devRef .tc main_arg11) = m ((c : Thread nD τ).loc main_arg11)
    ∧ W3 m ρ c (Proc.devRef .tc main_arg12) = m ((c : Thread nD τ).loc main_arg12)
    ∧ W3 m ρ c (Proc.devRef .tc main_arg16) = m ((c : Thread nD τ).loc main_arg16)
    ∧ W3 m ρ c (Proc.devRef .tc main_arg17) = m ((c : Thread nD τ).loc main_arg17) := by
  obtain ⟨k2, k10, k11, k12, k16, k17⟩ := stretch0_keeps (W0 m ρ c)
  exact ⟨(W3_of_ne m ρ c main_arg2 (by decide)).trans ((W2_of_ne m ρ c main_arg2 (by decide)).trans k2),
    (W3_of_ne m ρ c main_arg10 (by decide)).trans ((W2_of_ne m ρ c main_arg10 (by decide)).trans k10),
    (W3_of_ne m ρ c main_arg11 (by decide)).trans ((W2_of_ne m ρ c main_arg11 (by decide)).trans k11),
    (W3_of_ne m ρ c main_arg12 (by decide)).trans ((W2_of_ne m ρ c main_arg12 (by decide)).trans k12),
    (W3_of_ne m ρ c main_arg16 (by decide)).trans ((W2_of_ne m ρ c main_arg16 (by decide)).trans k16),
    (W3_of_ne m ρ c main_arg17 (by decide)).trans ((W2_of_ne m ρ c main_arg17 (by decide)).trans k17)⟩

/-- THE RESULT: after the last region the program's result array holds the linear head over the second SAGE step of
    the aggregated second hidden array and the first hidden array. -/
theorem result_eq (c : Dev nD) :
    W5 m ρ c (Proc.devRef .tc main_v71)
      = Cert.Sage.head (n := 50000) (agg (hiddenSecond m c) (m ((c : Thread nD τ).loc main_arg2))) (hiddenFirst m c)
          (m ((c : Thread nD τ).loc main_arg10)) (m ((c : Thread nD τ).loc main_arg12)) (m ((c : Thread nD τ).loc main_arg11))
          (m ((c : Thread nD τ).loc main_arg16)) (m ((c : Thread nD τ).loc main_arg17)) := by
  refine (W5_arr m ρ c 7).trans ((Cert.SageBlocks2.array_eq (V4 m ρ) c).trans ((stretch2 (W3 m ρ c)).trans ?_))
  obtain ⟨k2, k10, k11, k12, k16, k17⟩ := W3_args m ρ c
  rw [W3_second m ρ c, W3_first m ρ c, k2, k10, k11, k12, k16, k17]

end Cert.KernelValue

end
-- ==== Proof.RefStages.lean ====
/-
  The reference program, stage by stage, is the specification: its result is the linear head over the second SAGE
  step, whose aggregated operand is the mean-aggregation of the first layer's other output, each first-layer output
  being max(·, 0) of a SAGE step over the mean-aggregation of an input. The mean-aggregation itself (a gather, two
  scatter-adds and a quotient) is carried as one function of a feature array and an edge list and never opened.
-/
import proofs.«161901_j45689862094941_1_alg».proof.Proof.Gen.ReferenceIdeal.Read
import proofs.«161901_j45689862094941_1_alg».proof.Proof.SageSpec

noncomputable section

namespace Cert.RefStages

open Idealize.ShloMosaic Idealize.ShloMosaic.ValueIdx Cert.ReferenceIdeal Cert.ReferenceIdeal.Read

/-- Mean of the rows of `x` gathered along the edges `e`, per destination node: the reference's own stage. -/
abbrev agg (x : (⟨S50000x128, .f32⟩ : BufTy).Contents (Elt Ideal)) (e : (⟨S2x1600000, .i32⟩ : BufTy).Contents (Elt Ideal)) :
    (⟨S50000x128, .f32⟩ : BufTy).Contents (Elt Ideal) :=
  val_main_v22 (F := Ideal) x e

/-! ### The three aggregations are one function -/

/-- The second aggregation is the first one's function, of the other feature array and edge list. -/
theorem v51_eq (x1 : (⟨S50000x128, .f32⟩ : BufTy).Contents (Elt Ideal)) (x3 : (⟨S2x1600000, .i32⟩ : BufTy).Contents (Elt Ideal)) :
    val_main_v51 (F := Ideal) x1 x3 = agg x1 x3 := rfl

/-- The third aggregation is the same function again, of the first layer's second output. -/
theorem v82_eq (x0 x1 : (⟨S50000x128, .f32⟩ : BufTy).Contents (Elt Ideal)) (x2 x3 : (⟨S2x1600000, .i32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) :
    val_main_v82 (F := Ideal) x0 x1 x2 x3 x7 x8 x9 = agg (val_main_v59 (F := Ideal) x0 x1 x3 x7 x8 x9) x2 := rfl

/-! ### Where each stage reads its operands -/

theorem lidx23 (i : S50000x128.Idx) (k : Fin 128) : lidx_main_v23 i k = ix2 (i 0) k := by
  funext a; match a with | ⟨0, _⟩ => rfl | ⟨1, _⟩ => rfl
theorem ridx23 (i : S50000x128.Idx) (k : Fin 128) : ridx_main_v23 i k = ix2 k (i 1) := by
  funext a; match a with | ⟨0, _⟩ => rfl | ⟨1, _⟩ => rfl
theorem lidx27 (i : S50000x128.Idx) (k : Fin 128) : lidx_main_v27 i k = ix2 (i 0) k := by
  funext a; match a with | ⟨0, _⟩ => rfl | ⟨1, _⟩ => rfl
theorem ridx27 (i : S50000x128.Idx) (k : Fin 128) : ridx_main_v27 i k = ix2 k (i 1) := by
  funext a; match a with | ⟨0, _⟩ => rfl | ⟨1, _⟩ => rfl
theorem lidx52 (i : S50000x128.Idx) (k : Fin 128) : lidx_main_v52 i k = ix2 (i 0) k := by
  funext a; match a with | ⟨0, _⟩ => rfl | ⟨1, _⟩ => rfl
theorem ridx52 (i : S50000x128.Idx) (k : Fin 128) : ridx_main_v52 i k = ix2 k (i 1) := by
  funext a; match a with | ⟨0, _⟩ => rfl | ⟨1, _⟩ => rfl
theorem lidx56 (i : S50000x128.Idx) (k : Fin 128) : lidx_main_v56 i k = ix2 (i 0) k := by
  funext a; match a with | ⟨0, _⟩ => rfl | ⟨1, _⟩ => rfl
theorem ridx56 (i : S50000x128.Idx) (k : Fin 128) : ridx_main_v56 i k = ix2 k (i 1) := by
  funext a; match a with | ⟨0, _⟩ => rfl | ⟨1, _⟩ => rfl
theorem lidx83 (i : S50000x128.Idx) (k : Fin 128) : lidx_main_v83 i k = ix2 (i 0) k := by
  funext a; match a with | ⟨0, _⟩ => rfl | ⟨1, _⟩ => rfl
theorem ridx83 (i : S50000x128.Idx) (k : Fin 128) : ridx_main_v83 i k = ix2 k (i 1) := by
  funext a; match a with | ⟨0, _⟩ => rfl | ⟨1, _⟩ => rfl
theorem lidx87 (i : S50000x128.Idx) (k : Fin 128) : lidx_main_v87 i k = ix2 (i 0) k := by
  funext a; match a with | ⟨0, _⟩ => rfl | ⟨1, _⟩ => rfl
theorem ridx87 (i : S50000x128.Idx) (k : Fin 128) : ridx_main_v87 i k = ix2 k (i 1) := by
  funext a; match a with | ⟨0, _⟩ => rfl | ⟨1, _⟩ => rfl
theorem bidx25 (i : S50000x128.Idx) : idx_main_v24 (idx_main_v25 i) = ix1 (i 1) := by
  funext a; match a with | ⟨0, _⟩ => rfl
theorem bidx54 (i : S50000x128.Idx) : idx_main_v53 (idx_main_v54 i) = ix1 (i 1) := by
  funext a; match a with | ⟨0, _⟩ => rfl
theorem bidx85 (i : S50000x128.Idx) : idx_main_v84 (idx_main_v85 i) = ix1 (i 1) := by
  funext a; match a with | ⟨0, _⟩ => rfl

theorem lidx89 (i : S50000x2.Idx) (k : Fin 128) : lidx_main_v89 i k = ix2 (i 0) k := by
  funext a; match a with | ⟨0, _⟩ => rfl | ⟨1, _⟩ => rfl
theorem ridx89 (i : S50000x2.Idx) (k : Fin 128) : ridx_main_v89 i k = ix2 k (i 1) := by
  funext a; match a with | ⟨0, _⟩ => rfl | ⟨1, _⟩ => rfl
theorem bidx91 (i : S50000x2.Idx) : idx_main_v90 (idx_main_v91 i) = ix1 (i 1) := by
  funext a; match a with | ⟨0, _⟩ => rfl

/-! ### The first layer's two outputs -/

/-- The first output: max(·, 0) of the SAGE step over the aggregation of (x0, x2) and the rows of x1. -/
theorem v58_eq (x0 x1 : (⟨S50000x128, .f32⟩ : BufTy).Contents (Elt Ideal)) (x2 : (⟨S2x1600000, .i32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) :
    val_main_v58 (F := Ideal) x0 x1 x2 x4 x5 x6 = Cert.Sage.layer (agg x0 x2) x1 x4 x6 x5 := by
  funext i
  rw [val_main_v58_apply, val_main_v28_apply, val_main_v26_apply, val_main_v23_apply, val_main_v25_apply,
    val_main_v24_apply, val_main_v27_apply, val_main_call0_v0_apply, val_main_call0_cst_apply]
  simp only [lidx23, ridx23, lidx27, ridx27, bidx25]
  rfl

/-- The second output: the same step over the aggregation of (x1, x3) and the rows of x0. -/
theorem v59_eq (x0 x1 : (⟨S50000x128, .f32⟩ : BufTy).Contents (Elt Ideal)) (x3 : (⟨S2x1600000, .i32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) :
    val_main_v59 (F := Ideal) x0 x1 x3 x7 x8 x9 = Cert.Sage.layer (agg x1 x3) x0 x7 x9 x8 := by
  funext i
  rw [val_main_v59_apply, val_main_v57_apply, val_main_v55_apply, val_main_v52_apply, val_main_v54_apply,
    val_main_v53_apply, val_main_v56_apply, val_main_call1_v0_apply, val_main_call1_cst_apply, v51_eq]
  simp only [lidx52, ridx52, lidx56, ridx56, bidx54]
  rfl

/-! ### The second layer's step, before the head -/

/-- Row r, column q of the second step: the affine row over the third aggregation and the first layer's first output. -/
theorem v88_eq (x0 x1 : (⟨S50000x128, .f32⟩ : BufTy).Contents (Elt Ideal)) (x2 x3 : (⟨S2x1600000, .i32⟩ : BufTy).Contents (Elt Ideal)) (x4 : (⟨S128x128, .f32⟩ : BufTy).Contents (Elt Ideal)) (x5 : (⟨S128, .f32⟩ : BufTy).Contents (Elt Ideal)) (x6 x7 : (⟨S128x128, .f32⟩ : BufTy).Contents (Elt Ideal)) (x8 : (⟨S128, .f32⟩ : BufTy).Contents (Elt Ideal))
    (x9 x10 : (⟨S128x128, .f32⟩ : BufTy).Contents (Elt Ideal)) (x11 : (⟨S128, .f32⟩ : BufTy).Contents (Elt Ideal)) (x12 : (⟨S128x128, .f32⟩ : BufTy).Contents (Elt Ideal)) :
    val_main_v88 (F := Ideal) x0 x1 x2 x3 x4 x5 x6 x7 x8 x9 x10 x11 x12
      = fun j => Cert.Sage.affineRow
          (fun k => agg (Cert.Sage.layer (agg x1 x3) x0 x7 x9 x8) x2 (ix2 (j 0) k))
          (fun k => Cert.Sage.layer (agg x0 x2) x1 x4 x6 x5 (ix2 (j 0) k)) x10 x12 x11 (j 1) := by
  funext j
  rw [val_main_v88_apply, val_main_v86_apply, val_main_v83_apply, val_main_v85_apply, val_main_v84_apply,
    val_main_v87_apply, v82_eq, v58_eq, v59_eq]
  simp only [lidx83, ridx83, lidx87, ridx87, bidx85]
  rfl

/-- The reference's result as the specification's functions of the arguments. -/
theorem result_eq (x0 x1 : (⟨S50000x128, .f32⟩ : BufTy).Contents (Elt Ideal)) (x2 x3 : (⟨S2x1600000, .i32⟩ : BufTy).Contents (Elt Ideal))
    (x4 : (⟨S128x128, .f32⟩ : BufTy).Contents (Elt Ideal)) (x5 : (⟨S128, .f32⟩ : BufTy).Contents (Elt Ideal))
    (x6 x7 : (⟨S128x128, .f32⟩ : BufTy).Contents (Elt Ideal)) (x8 : (⟨S128, .f32⟩ : BufTy).Contents (Elt Ideal))
    (x9 x10 : (⟨S128x128, .f32⟩ : BufTy).Contents (Elt Ideal)) (x11 : (⟨S128, .f32⟩ : BufTy).Contents (Elt Ideal))
    (x12 : (⟨S128x128, .f32⟩ : BufTy).Contents (Elt Ideal)) (x16 : (⟨S128x2, .f32⟩ : BufTy).Contents (Elt Ideal))
    (x17 : (⟨S2, .f32⟩ : BufTy).Contents (Elt Ideal)) :
    val_main_v92 (F := Ideal) x0 x1 x2 x3 x4 x5 x6 x7 x8 x9 x10 x11 x12 x16 x17
      = Cert.Sage.head (agg (Cert.Sage.layer (agg x1 x3) x0 x7 x9 x8) x2) (Cert.Sage.layer (agg x0 x2) x1 x4 x6 x5)
          x10 x12 x11 x16 x17 := by
  funext i
  rw [val_main_v92_apply, val_main_v89_apply, val_main_v91_apply, val_main_v90_apply, v88_eq]
  simp only [lidx89, ridx89, bidx91]
  rfl

end Cert.RefStages

end
-- ==== Proof.lean ====
/-
  A two-layer heterogeneous GraphSAGE (mean aggregation) with a linear head on the studies nodes, on 50000 nodes per
  type and 1.6 million edges per edge type: the kernel program against jnp's.

  Both programs mean-aggregate neighbour features on the host with the same operations (a gather of the source rows,
  a scatter-add into the destination rows, a scatter-add of ones for the counts, the counts clamped at one, a
  quotient): that composition is one function `agg` of a feature array and an edge list, and it is never opened. What
  differs is the dense part. jnp computes, for all 50000 rows at once,
      h = max(agg · Wl + b + x · Wr, 0)            (twice, once per node type)
      out = (agg(h_s) · Wl₂ + b₂ + h_st · Wr₂) · W + c,
  with `dot_general` for every product; the kernel program computes the same three steps in three kernel regions, each
  over ten blocks of 5000 rows, with a product into a zero accumulator for every product. At the ideal values a
  product is the plain sum over the contracted axis on either side, the additions and the maximum act entry by entry,
  and an entry of a row block depends on its own row only; so every region leaves, in its output array, exactly the
  array jnp computes — index by index the same expression, with no algebraic law needed (no reordering of a sum, no
  distributivity), hence no use of the inputs' finiteness. The kernel program's frame and the word-level program's are
  the generated frames; jnp's is its generated run; the idealization rewrote nothing.
-/
import proofs.«161901_j45689862094941_1_alg».proof.Defs
import proofs.«161901_j45689862094941_1_alg».proof.Proof.Gen.Kernel
import proofs.«161901_j45689862094941_1_alg».proof.Proof.Gen.Kernel.Skeleton
import proofs.«161901_j45689862094941_1_alg».proof.Proof.Gen.Kernel.Launch
import proofs.«161901_j45689862094941_1_alg».proof.Proof.Gen.Kernel.Points
import proofs.«161901_j45689862094941_1_alg».proof.Proof.Gen.Kernel.Frame
import proofs.«161901_j45689862094941_1_alg».proof.Proof.Gen.KernelIdeal
import proofs.«161901_j45689862094941_1_alg».proof.Proof.Gen.KernelIdeal.Skeleton
import proofs.«161901_j45689862094941_1_alg».proof.Proof.Gen.KernelIdeal.Launch
import proofs.«161901_j45689862094941_1_alg».proof.Proof.Gen.KernelIdeal.Points
import proofs.«161901_j45689862094941_1_alg».proof.Proof.Gen.KernelIdeal.Frame
import proofs.«161901_j45689862094941_1_alg».proof.Proof.Gen.ReferenceIdeal
import proofs.«161901_j45689862094941_1_alg».proof.Proof.Gen.ReferenceIdeal.Run
import proofs.«161901_j45689862094941_1_alg».proof.Proof.Gen.ReferenceIdeal.Read
import proofs.«161901_j45689862094941_1_alg».proof.Proof.Gen.Pre_finite_inputs
import proofs.«161901_j45689862094941_1_alg».proof.Proof.KernelRun
import proofs.«161901_j45689862094941_1_alg».proof.Proof.KernelValue
import proofs.«161901_j45689862094941_1_alg».proof.Proof.RefStages
import Idealize.ShloMosaic.Adequacy
import Idealize.ShloMosaic.Init

noncomputable section

namespace Cert.Proof

open Idealize.ShloMosaic Idealize.SL.Sem

/-- The word-level program runs and keeps its arguments: its generated frame. -/
theorem frame_kernel : Cert.frame_Kernel := fun m ρ _ => Cert.Kernel.Gen.frame m ρ

/-- The idealized kernel program runs and keeps its arguments: its generated frame. -/
theorem frame_kernelIdeal : Cert.frame_KernelIdeal := fun m ρ _ => Cert.KernelIdeal.Gen.frame m ρ

/-- jnp's program runs and keeps its arguments: its generated run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the same 50000 × 2 array: the linear head over
    the second SAGE step of the aggregated second hidden array and the first hidden array. -/
theorem algebraic : Cert.algebraic_KernelIdeal_ReferenceIdeal := by
  intro m ρ m' ρ' _ hagree
  refine ⟨fun c => _, (θ_run Cert.KernelIdeal.defs _ _).mono
      (fun r h c => ⟨(h c).1.trans (Cert.KernelValue.result_eq m ρ c), (h c).2⟩)
      (Cert.KernelIdeal.GenRun.run_last (F := Ideal) m ρ), ?_⟩
  refine (θ_run Cert.ReferenceIdeal.defs _ _).mono (fun r h c => ⟨(h c).1.trans ?_, (h c).2⟩)
    (Cert.ReferenceIdeal.Value.run (F := Ideal) m' ρ')
  obtain ⟨h0, h1, h2, h3, h4, h5, h6, h7, h8, h9, h10, h11, h12, -, -, -, h16, h17⟩ := hagree c
  rw [Cert.ReferenceIdeal.Read.val_main_v92_eq, Cert.RefStages.result_eq, h0, h1, h2, h3, h4, h5, h6, h7, h8, h9, h10, h11,
    h12, h16, h17]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
